-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) (main_arg2 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  main_v13
-- ==== Kernel.lean ====
abbrev S8x2048x128 : Shape := ⟨3, ![8, 2048, 128]⟩
abbrev S1x2048x128 : Shape := ⟨3, ![1, 2048, 128]⟩
abbrev S2048x128 : Shape := ⟨2, ![2048, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  shapeCasts_S2048x128_S1x2048x128 : S2048x128.ShapeCasts S1x2048x128
  dot_S2048x128_S2048x128_S128x128_0_0_1_1_n_n_wf : DotDims.WF S2048x128 S2048x128 S128x128 [0] [0] [1] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x2048x128.size a
  hwx0_3 : ∀ i : grid0.Coords, EltTy.bits .f32 = 32 ∨ (Rect.block (s := S8x2048x128) S1x2048x128.size (cc0_transform_3 i) (hinb0_3 i)).WholeWords (EltTy.packing .f32)

variable [Facts₀]

def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Finite.lean ====
/-
  From the precondition to real entries.

  The precondition computes, for each of the three inputs, the conjunction over all entries of `|x| < +∞` and then
  the conjunction of the three results, and asks that the outcome be 1. A conjunction that is 1 has both conjuncts 1;
  a conjunction over all entries that is 1 has every entry's comparison 1; and an extended real whose absolute value
  `max x (-x)` is strictly below `+∞` is neither infinity, hence a real number.
-/
import proofs.«131436_j39676907883207_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The rank-0 shape has exactly one index. -/
instance : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value compares strictly below `+∞` is a real number. -/
theorem real_of_abs_lt_top (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- One input: if the conjunction over all entries of `|x| < +∞` is 1, every entry is a real number. -/
theorem reals_of_all [Facts] (x : FVec Ideal S8x2048x128 .f32)
    (h : Host.reduce IntOp.andi
      (cmpf CmpFPredicate.olt (Host.absf x) (broadcastInDim S8x2048x128 ![] Facts.bcast_S_S8x2048x128 (constant S_ .f32 0x7F800000#32)))
      (constantI S_ 1 1#1) Facts.reducesTo_S8x2048x128_S_d0_1_2 Facts.h_S_ ValueIdx.ix0 = 1#1)
    (i : S8x2048x128.Idx) : ∃ r : ℝ, x i = r := by
  have e := Host.reduce_andi_all _ _ _ _ _ h i
  have e' : Ideal.cmp .olt (max (x i) (-(x i))) (Ideal.ofBits .f32 0x7F800000#32) = 1#1 := e
  rw [ofBits_inf] at e'
  exact real_of_abs_lt_top _ e'

/-- The precondition on three arrays gives real entries in all three. -/
theorem reals_of_pre [Facts] (q k v : FVec Ideal S8x2048x128 .f32) (h : fn (F := Ideal) q k v = fun _ => 1#1) :
    (∀ i, ∃ r : ℝ, q i = r) ∧ (∀ i, ∃ r : ℝ, k i = r) ∧ (∀ i, ∃ r : ℝ, v i = r) := by
  have h0 := congrFun h ValueIdx.ix0
  dsimp only [fn] at h0
  obtain ⟨h1, h2⟩ := IntOp.andi_eq_one.1 h0
  obtain ⟨h3, h4⟩ := IntOp.andi_eq_one.1 h1
  exact ⟨reals_of_all q h3, reals_of_all k h4, reals_of_all v h2⟩

end Cert.Finite

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.LibColumnMatmul.lean ====
/-
  A matrix product that contracts the FIRST axis of both operands, read at an index, on the extended reals.

  For dimension numbers that contract the left operand's axis 0 with the right operand's axis 0, keep the left
  operand's axis 1 and the right operand's axis 1 as the result's two axes in that order, and have no batch axis
  — the transpose of a `[K, M]` array times a `[K, N]` array —, the product into a zero accumulator has at `(a, v)`
  the entry `Σ_k lhs[k, a] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.ColumnMatmul

open Idealize.ShloMosaic Idealize.ShloMosaic.ValueIdx
open scoped BigOperators

variable {M K N : ℕ} (d : DotDims ⟨2, ![K, M]⟩ ⟨2, ![K, N]⟩ ⟨2, ![M, N]⟩)

/-- The left operand's second coordinate is the result's first: axis 1 is the left operand's only kept axis, and
    with no batch axis it is the result's first. -/
theorem lhs_kept (hb : d.lhsBatch = []) (hn : d.lhsNonContracting = [1]) (j : (⟨2, ![M, N]⟩ : Shape).Idx) (k : d.contr.Idx) :
    (d.lhsIdx j k 1).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's second coordinate is the result's second: axis 1 is the right operand's only kept axis, and
    it comes after the left operand's one kept axis among the result's. -/
theorem rhs_kept (hlb : d.lhsBatch = []) (hrb : d.rhsBatch = []) (hln : d.lhsNonContracting = [1])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[k, a] · rhs[k, v]`. -/
theorem matmul_zero_apply {φ₁ φ₂ : FTy} (hlb : d.lhsBatch = []) (hrb : d.rhsBatch = []) (hln : d.lhsNonContracting = [1])
    (hrn : d.rhsNonContracting = [1]) (hlc : d.lhsContracting = [0]) (hrc : d.rhsContracting = [0])
    (prec : Option ContractPrecision) (lhs : FVec Ideal ⟨2, ![K, M]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 k a) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 k a := by
    funext ax; apply Fin.ext
    match ax with
    | ⟨0, _⟩ => exact (d.lhsIdx_val_of_single hlc _ _).trans (contrEquiv1_symm_val d K hr hs k)
    | ⟨1, _⟩ => exact lhs_kept d hlb hln _ _
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_kept d hlb hrb hln hrn _ _
  rw [e1, e2]

end Cert.ColumnMatmul

end
-- ==== Proof.Consts.lean ====
/-
  The two float constants the programs spell, as the extended reals their bit patterns denote: the kernel's scale
  `0.125` is the real `1/8`, and the reference's divisor `8.0` is the real `8`.
-/
import Idealize.ShloMosaic.PureOps.Ideal

noncomputable section

namespace Cert.Consts

open Idealize.ShloMosaic

/-- The pattern of `8.0` denotes the real number 8. -/
theorem ofBits_eight : Ideal.ofBits .f32 0x41000000#32 = ((8 : ℝ) : EReal) := by
  simp [Ideal.ofBits, Ideal.ieee, -EReal.coe_mul]; norm_num

/-- The pattern of `0.125` denotes the real number 1/8. -/
theorem ofBits_eighth : Ideal.ofBits .f32 0x3E000000#32 = ((1 / 8 : ℝ) : EReal) := by
  simp [Ideal.ofBits, Ideal.ieee, -EReal.coe_mul]; norm_num

end Cert.Consts

end
-- ==== Proof.KernelBlock.lean ====
/-
  What the kernel body stores, entry by entry.

  At one grid point the body loads a `[1, 2048, 128]` block of each input — call them the query block `x0`, the
  key block `x1` and the value block `x2` —, drops the unit axis, forms the `128 × 128` matrix
  `M[e, d] = Σ_t x1[t, e] · x2[t, d]` (a product contracting the first axis of both operands), multiplies the query
  rows by it, `Σ_e x0[s, e] · M[e, d]`, scales by the constant `0.125 = 1/8` and puts the unit axis back. The changes
  of float format in between are the identity on extended reals, and both products accumulate into zero, so the
  stored entry at `(0, s, d)` is `(Σ_e x0[0, s, e] · Σ_t x1[0, t, e] · x2[0, t, d]) · (1/8)`.
-/
import proofs.«131436_j39676907883207_1_alg».proof.Proof.Gen.KernelIdeal.Skeleton
import proofs.«131436_j39676907883207_1_alg».proof.Proof.LibPlainMatmul
import proofs.«131436_j39676907883207_1_alg».proof.Proof.LibColumnMatmul
import proofs.«131436_j39676907883207_1_alg».proof.Proof.Consts
import Idealize.ShloMosaic.Lib.ValueIdx
import Idealize.ShloMosaic.Lib.ValueLayout
import Idealize.ShloMosaic.Lib.Pipeline.Value

noncomputable section

namespace Cert.KernelBlock

open Idealize.ShloMosaic Idealize.ShloMosaic.ValueIdx Cert.KernelIdeal Cert.KernelIdeal.Gen
open scoped BigOperators

/-- The stored block at `(u, s, d)`, from the three loaded blocks. -/
theorem stored_apply (x0 x1 x2 : Vec Ideal S1x2048x128 .f32) (u : Fin 1) (s : Fin 2048) (d : Fin 128) :
    k0_pay1 (F := Ideal) x0 x1 x2 (ix3 u s d)
      = (∑ e : Fin 128, x0 (ix3 0 s e) * ∑ t : Fin 2048, x1 (ix3 0 t e) * x2 (ix3 0 t d)) * ((1 / 8 : ℝ) : EReal) := by
  unfold k0_pay1
  refine (shapeCast_ab_1ab_apply _ _ u s d).trans ?_
  rw [mulf_apply]
  refine congrArg₂ (· * ·) ?_ Consts.ofBits_eighth
  refine (Cert.PlainMatmul.matmul_zero_apply dot_S2048x128_S128x128_S2048x128_1_0_0_1_n_n rfl rfl rfl rfl rfl rfl none _ _ s d).trans ?_
  refine Finset.sum_congr rfl fun e _ => ?_
  refine congrArg₂ (· * ·) (shapeCast_1ab_ab_apply x0 _ s e) ?_
  refine (Cert.ColumnMatmul.matmul_zero_apply dot_S2048x128_S2048x128_S128x128_0_0_1_1_n_n rfl rfl rfl rfl rfl rfl none _ _ e d).trans ?_
  refine Finset.sum_congr rfl fun t _ => ?_
  exact congrArg₂ (· * ·) (shapeCast_1ab_ab_apply x1 _ t e) (shapeCast_1ab_ab_apply x2 _ t d)

end Cert.KernelBlock

end
-- ==== Proof.Algebra.lean ====
/-
  The law that joins the two programs, on the reals and then on the extended reals at real entries.

  Fix a batch, a query row and an output column, and write `q e` for the query row's entries, `k t e` for the key
  matrix and `v t` for the value column. One side scales each score `Σ_e q e · k t e` by 1/8 and then sums the
  scores against `v` over `t`; the other first forms `Σ_t k t e · v t` for each `e`, sums those against `q` over
  `e`, and scales once at the end. On the reals both are `(1/8) · Σ_t Σ_e q e · k t e · v t`: multiplication
  distributes over the finite sums and the two sums commute. On the extended reals distributivity can fail at an
  infinity, so the law is stated for entries that are real numbers; then every partial sum is a real as well and
  the coercion from the reals carries the law over.
-/
import Idealize.ShloMosaic.PureOps.Ideal

noncomputable section

namespace Cert.Algebra

open Idealize.ShloMosaic
open scoped BigOperators

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: scaling every score and then summing against `v` is summing `q` against the products `Σ_t k · v`
    and scaling once. -/
theorem scores_then_values_real {E T : Type*} [Fintype E] [Fintype T] (q : E → ℝ) (k : T → E → ℝ) (v : T → ℝ) :
    ∑ t, ((∑ e, q e * k t e) * (1 / 8)) * v t = (∑ e, q e * ∑ t, k t e * v t) * (1 / 8) := by
  simp only [Finset.sum_mul, Finset.mul_sum]
  rw [Finset.sum_comm]
  exact Finset.sum_congr rfl fun e _ => Finset.sum_congr rfl fun t _ => by ring

/-- The same on the extended reals, for real entries, with the division by `8` the host performs. -/
theorem scores_then_values {E T : Type*} [Fintype E] [Fintype T] (q : E → EReal) (k : T → E → EReal) (v : T → EReal)
    (hq : ∀ e, ∃ r : ℝ, q e = r) (hk : ∀ t e, ∃ r : ℝ, k t e = r) (hv : ∀ t, ∃ r : ℝ, v t = r) :
    ∑ t, Ideal.div (∑ e, q e * k t e) ((8 : ℝ) : EReal) * v t = (∑ e, q e * ∑ t, k t e * v t) * ((1 / 8 : ℝ) : EReal) := by
  choose q' hq' using hq
  choose k' hk' using hk
  choose v' hv' using hv
  simp only [hq', hk', hv', Ideal.div_coe (by norm_num : (8 : ℝ) ≠ 0), ← EReal.coe_mul, ← coe_sum]
  exact congrArg _ (scores_then_values_real q' k' v')

end Cert.Algebra

end
-- ==== Proof.Spec.lean ====
/-
  The result as one function of the three argument arrays.

  `attn q k v` at `(b, s, d)` is `(Σ_e q[b, s, e] · Σ_t k[b, t, e] · v[b, t, d]) · (1/8)`: the query row against the
  `128 × 128` matrix `Kᵀ V` of batch `b`, scaled once. This is the order in which the kernel computes. The reference
  computes `Σ_t ((Σ_e q[b, s, e] · k[b, t, e]) / 8) · v[b, t, d]`; for arrays whose entries are real numbers the two
  agree, by the law of `Algebra` applied to the row `q[b, s, ·]`, the matrix `k[b, ·, ·]` and the column `v[b, ·, d]`.
-/
import proofs.«131436_j39676907883207_1_alg».proof.Proof.Algebra
import Idealize.ShloMosaic.Lib.ValueIdx

noncomputable section

namespace Cert.Spec

open Idealize.ShloMosaic Idealize.ShloMosaic.ValueIdx
open scoped BigOperators

/-- An `[8, 2048, 128]` array of extended reals. -/
abbrev Arr : Type := (⟨3, ![8, 2048, 128]⟩ : Shape).Idx → EReal

/-- The query rows against `Kᵀ V` of their batch, scaled by `1/8`. -/
def attn (q k v : Arr) : Arr := fun i =>
  (∑ e : Fin 128, q (ix3 (i 0) (i 1) e) * ∑ t : Fin 2048, k (ix3 (i 0) t e) * v (ix3 (i 0) t (i 2))) * ((1 / 8 : ℝ) : EReal)

/-- `attn` at an index given by its coordinates. -/
theorem attn_apply (q k v : Arr) (b : Fin 8) (s : Fin 2048) (d : Fin 128) :
    attn q k v (ix3 b s d)
      = (∑ e : Fin 128, q (ix3 b s e) * ∑ t : Fin 2048, k (ix3 b t e) * v (ix3 b t d)) * ((1 / 8 : ℝ) : EReal) := rfl

/-- For arrays of real entries, scaling every score by `1/8` and then summing against the values is `attn`. -/
theorem scores_form (q k v : Arr) (hq : ∀ i, ∃ r : ℝ, q i = r) (hk : ∀ i, ∃ r : ℝ, k i = r) (hv : ∀ i, ∃ r : ℝ, v i = r)
    (b : Fin 8) (s : Fin 2048) (d : Fin 128) :
    ∑ t : Fin 2048, Ideal.div (∑ e : Fin 128, q (ix3 b s e) * k (ix3 b t e)) ((8 : ℝ) : EReal) * v (ix3 b t d)
      = attn q k v (ix3 b s d) :=
  Algebra.scores_then_values (fun e => q (ix3 b s e)) (fun t e => k (ix3 b t e)) (fun t => v (ix3 b t d))
    (fun _ => hq _) (fun _ _ => hk _) (fun _ => hv _)

end Cert.Spec

end
-- ==== Proof.KernelArray.lean ====
/-
  From the blocks the kernel writes back to the whole result array.

  The grid has one point per batch. At point `t` each of the four windows has the block index `(t, 0, 0)` with block
  shape `[1, 2048, 128]`, so the block of an array at point `t` is batch `t` of it: entry `(u, s, e)` of the block is
  entry `(t, s, e)` of the array. Feeding batch `t` of the three inputs to the body gives batch `t` of `attn` of the
  inputs (`KernelBlock`), the eight batches cover the output array, and so the array after the run is `attn` of the
  argument arrays.
-/
import proofs.«131436_j39676907883207_1_alg».proof.Proof.Gen.KernelIdeal.Value
import proofs.«131436_j39676907883207_1_alg».proof.Proof.KernelBlock
import proofs.«131436_j39676907883207_1_alg».proof.Proof.Spec
import Idealize.ShloMosaic.Lib.Pipeline.Value

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem zero_offsets : (![0, 0, 0] : Fin 3 → Nat) = fun _ => 0 := funext fun a => by fin_cases a <;> rfl

/-- At point `t` every window's block index is `(t, 0, 0)` (decided over the eight points). -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The batch a grid point works on. -/
abbrev batch (t : Fin cfg0.N) : Fin 8 := Fin.cast N_0 t

/-- The query window's block at point `t` is batch `t` of the first argument. -/
theorem qblk_apply (c : Dev nD) (t : Fin cfg0.N) (u : Fin 1) (s : Fin 2048) (e : Fin 128) :
    (iblk m c 0 t : Vec Ideal S1x2048x128 .f32) (ix3 u s e) = (V m c main_arg0 : Spec.Arr) (ix3 (batch t) s e) := by
  obtain ⟨⟨a0, a1, a2⟩, -⟩ := block_index t
  unfold iblk
  rw [View.read_apply]
  show V m c main_arg0 _ = V m c main_arg0 _
  congr 1
  funext a
  apply Fin.ext
  match a with
  | ⟨0, _⟩ => show win0_0.index t (0 : Fin 3) * 1 + 1 * u.val = t.val; rw [a0]; omega
  | ⟨1, _⟩ => show win0_0.index t (1 : Fin 3) * 2048 + 1 * s.val = s.val; rw [a1]; omega
  | ⟨2, _⟩ => show win0_0.index t (2 : Fin 3) * 128 + 1 * e.val = e.val; rw [a2]; omega

/-- The key window's block at point `t` is batch `t` of the second argument. -/
theorem kblk_apply (c : Dev nD) (t : Fin cfg0.N) (u : Fin 1) (s : Fin 2048) (e : Fin 128) :
    (iblk m c 1 t : Vec Ideal S1x2048x128 .f32) (ix3 u s e) = (V m c main_arg1 : Spec.Arr) (ix3 (batch t) s e) := by
  obtain ⟨-, ⟨a0, a1, a2⟩, -⟩ := block_index t
  unfold iblk
  rw [View.read_apply]
  show V m c main_arg1 _ = V m c main_arg1 _
  congr 1
  funext a
  apply Fin.ext
  match a with
  | ⟨0, _⟩ => show win0_1.index t (0 : Fin 3) * 1 + 1 * u.val = t.val; rw [a0]; omega
  | ⟨1, _⟩ => show win0_1.index t (1 : Fin 3) * 2048 + 1 * s.val = s.val; rw [a1]; omega
  | ⟨2, _⟩ => show win0_1.index t (2 : Fin 3) * 128 + 1 * e.val = e.val; rw [a2]; omega

/-- The value window's block at point `t` is batch `t` of the third argument. -/
theorem vblk_apply (c : Dev nD) (t : Fin cfg0.N) (u : Fin 1) (s : Fin 2048) (e : Fin 128) :
    (iblk m c 2 t : Vec Ideal S1x2048x128 .f32) (ix3 u s e) = (V m c main_arg2 : Spec.Arr) (ix3 (batch t) s e) := by
  obtain ⟨-, -, ⟨a0, a1, a2⟩, -⟩ := block_index t
  unfold iblk
  rw [View.read_apply]
  show V m c main_arg2 _ = V m c main_arg2 _
  congr 1
  funext a
  apply Fin.ext
  match a with
  | ⟨0, _⟩ => show win0_2.index t (0 : Fin 3) * 1 + 1 * u.val = t.val; rw [a0]; omega
  | ⟨1, _⟩ => show win0_2.index t (1 : Fin 3) * 2048 + 1 * s.val = s.val; rw [a1]; omega
  | ⟨2, _⟩ => show win0_2.index t (2 : Fin 3) * 128 + 1 * e.val = e.val; rw [a2]; omega

/-- The body on three blocks that are batch `b` of three arrays stores batch `b` of `attn` of those arrays. -/
theorem stored_eq_attn (x0 x1 x2 : Vec Ideal S1x2048x128 .f32) (A0 A1 A2 : Spec.Arr) (b : Fin 8)
    (h0 : ∀ (u : Fin 1) (s : Fin 2048) (e : Fin 128), x0 (ix3 u s e) = A0 (ix3 b s e))
    (h1 : ∀ (u : Fin 1) (s : Fin 2048) (e : Fin 128), x1 (ix3 u s e) = A1 (ix3 b s e))
    (h2 : ∀ (u : Fin 1) (s : Fin 2048) (e : Fin 128), x2 (ix3 u s e) = A2 (ix3 b s e))
    (y : S1x2048x128.Idx) :
    k0_pay1 (F := Ideal) x0 x1 x2 y = Spec.attn A0 A1 A2 (ix3 b (y 1) (y 2)) := by
  obtain ⟨u, s, d, rfl⟩ : ∃ (u : Fin 1) (s : Fin 2048) (d : Fin 128), y = ix3 u s d := ⟨y 0, y 1, y 2, eq_ix3 y⟩
  rw [KernelBlock.stored_apply, Spec.attn_apply]
  simp only [h0, h1, h2]

/-- WHAT POINT `t` WRITES BACK is block `t` of `attn` of the argument arrays. -/
theorem flushed_eq (c : Dev nD) (t : Fin cfg0.N) :
    (dats m 0 c).flushed 3 t
      = ((cfg0.win 3).blk t).view.read (Elt Ideal) (Spec.attn (V m c main_arg0) (V m c main_arg1) (V m c main_arg2)) := by
  rw [Value.flushed3]
  unfold out0_3
  rw [View.canon_unit_zero zero_offsets]
  simp only [View.ld_unit_zero (S := S1x2048x128) zero_offsets]
  obtain ⟨-, -, -, ⟨a0, a1, a2⟩⟩ := block_index t
  funext j
  show k0_pay1 (iblk m c 0 t) (iblk m c 1 t) (iblk m c 2 t) j
    = Spec.attn (V m c main_arg0) (V m c main_arg1) (V m c main_arg2) (((cfg0.win 3).blk t).view.emb j)
  refine (stored_eq_attn (iblk m c 0 t) (iblk m c 1 t) (iblk m c 2 t) (V m c main_arg0) (V m c main_arg1) (V m c main_arg2)
    (batch t) (qblk_apply m c t) (kblk_apply m c t) (vblk_apply m c t) j).trans ?_
  congr 1
  funext a
  apply Fin.ext
  have hj0 : (j 0).val < 1 := (j 0).isLt
  match a with
  | ⟨0, _⟩ => show t.val = win0_3.index t (0 : Fin 3) * 1 + 1 * (j 0).val; rw [a0]; omega
  | ⟨1, _⟩ => show (j 1).val = win0_3.index t (1 : Fin 3) * 2048 + 1 * (j 1).val; rw [a1]; omega
  | ⟨2, _⟩ => show (j 2).val = win0_3.index t (2 : Fin 3) * 128 + 1 * (j 2).val; rw [a2]; omega

/-- An index of the array is in point `t`'s block iff each coordinate is in the block's range on its axis. -/
theorem mem_block (t : Fin cfg0.N) (i : S8x2048x128.Idx) :
    i ∈ ((cfg0.win 3).blk t).view.set ↔ ∀ a : Fin 3, win0_3.index t a * S1x2048x128.size a ≤ (i a).val ∧ (i a).val < win0_3.index t a * S1x2048x128.size a + S1x2048x128.size a := by
  show i ∈ ((View.whole main_v0).slice (win0_3.rect t)).set ↔ _
  rw [View.set_slice_whole, Rect.mem_set_unit]
  exact Iff.rfl

/-- Every index of the output array is in the block of the point that works on its batch. -/
theorem covered (i : S8x2048x128.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  refine ⟨Fin.cast N_0.symm (⟨(i 0).val, hi0⟩ : Fin 8), flush0_3 _, ?_⟩
  obtain ⟨-, -, -, ⟨a0, a1, a2⟩⟩ := block_index (Fin.cast N_0.symm (⟨(i 0).val, hi0⟩ : Fin 8))
  rw [mem_block]
  intro a
  match a with
  | ⟨0, _⟩ =>
    show win0_3.index _ (0 : Fin 3) * 1 ≤ (i 0).val ∧ (i 0).val < win0_3.index _ (0 : Fin 3) * 1 + 1
    rw [a0]; show (i 0).val * 1 ≤ (i 0).val ∧ (i 0).val < (i 0).val * 1 + 1; omega
  | ⟨1, _⟩ =>
    show win0_3.index _ (1 : Fin 3) * 2048 ≤ (i 1).val ∧ (i 1).val < win0_3.index _ (1 : Fin 3) * 2048 + 2048
    rw [a1]; omega
  | ⟨2, _⟩ =>
    show win0_3.index _ (2 : Fin 3) * 128 ≤ (i 2).val ∧ (i 2).val < win0_3.index _ (2 : Fin 3) * 128 + 128
    rw [a2]; omega

/-- THE ARRAY after the run is `attn` of the argument arrays as launched. -/
theorem final (c : Dev nD) :
    (dats m 0 c).arrAt 3 cfg0.N
      = Spec.attn (m ((c : Thread nD τ).loc main_arg0)) (m ((c : Thread nD τ).loc main_arg1)) (m ((c : Thread nD τ).loc main_arg2)) :=
  (dats m 0 c).arrAt_eq_of_cover 3 (Spec.attn (V m c main_arg0) (V m c main_arg1) (V m c main_arg2))
    (fun t _ => flushed_eq m c t) covered

/-- The kernel's run with its result array named: `attn` of the arguments, the arguments unchanged. -/
theorem run : θ_run defs (onTc (τ := τ) (main (F := Ideal))) ⟨m, fun _ => 0, ρ⟩ fun r => ∀ c : Dev nD,
      r.2.mem ((c : Thread nD τ).loc main_v0)
        = Spec.attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelArray

end
-- ==== Proof.RefValue.lean ====
/-
  What the reference computes, entry by entry.

  The reference forms the scores `Σ_e q[b, s, e] · k[b, t, e]` (one batched product), divides every score by `8`,
  and multiplies the scaled scores with the values, `Σ_t score[b, s, t] · v[b, t, d]` (a second batched product).
  Read one operation at a time at the index `(b, s, d)`, with the divisor's bit pattern evaluated to the real 8.
-/
import proofs.«131436_j39676907883207_1_alg».proof.Proof.Gen.ReferenceIdeal.Read
import proofs.«131436_j39676907883207_1_alg».proof.Proof.Consts
import Idealize.ShloMosaic.Lib.ValueIdx

noncomputable section

namespace Cert.RefValue

open Idealize.ShloMosaic Idealize.ShloMosaic.ValueIdx Cert.ReferenceIdeal Cert.ReferenceIdeal.Read
open scoped BigOperators

/-- The reference's result at `(b, s, d)`. -/
theorem result_apply (q k v : (⟨S8x2048x128, .f32⟩ : BufTy).Contents (Elt Ideal)) (b : Fin 8) (s : Fin 2048) (d : Fin 128) :
    val_main_v3 (F := Ideal) q k v (ix3 b s d)
      = ∑ t : Fin 2048, Ideal.div (∑ e : Fin 128, q (ix3 b s e) * k (ix3 b t e)) ((8 : ℝ) : EReal) * v (ix3 b t d) := by
  rw [val_main_v3_apply]
  refine Finset.sum_congr rfl fun t _ => ?_
  have hv : ridx_main_v3 (ix3 b s d) t = ix3 b t d :=
    funext fun a => Fin.ext (by match a with | ⟨0, _⟩ => rfl | ⟨1, _⟩ => rfl | ⟨2, _⟩ => rfl)
  have hq : ∀ e : Fin 128, lidx_main_v0 (lidx_main_v3 (ix3 b s d) t) e = ix3 b s e := fun e =>
    funext fun a => Fin.ext (by match a with | ⟨0, _⟩ => rfl | ⟨1, _⟩ => rfl | ⟨2, _⟩ => rfl)
  have hk : ∀ e : Fin 128, ridx_main_v0 (lidx_main_v3 (ix3 b s d) t) e = ix3 b t e := fun e =>
    funext fun a => Fin.ext (by match a with | ⟨0, _⟩ => rfl | ⟨1, _⟩ => rfl | ⟨2, _⟩ => rfl)
  rw [val_main_v2_apply, val_main_v0_apply, val_main_v1_apply, val_main_cst_apply, hv]
  simp only [hq, hk, Ideal.hostDivf_def, Ideal.ofBits_def, Consts.ofBits_eight]

end Cert.RefValue

end
-- ==== Proof.RefBridge.lean ====
/-
  The reference's result is `attn` of its arguments when their entries are real numbers: read at `(b, s, d)` it is
  the sum over `t` of the scaled scores against the values (`RefValue`), which the law of `Spec` turns into `attn`.
-/
import proofs.«131436_j39676907883207_1_alg».proof.Proof.RefValue
import proofs.«131436_j39676907883207_1_alg».proof.Proof.Spec

noncomputable section

namespace Cert.RefBridge

open Idealize.ShloMosaic Idealize.ShloMosaic.ValueIdx Cert.ReferenceIdeal Cert.ReferenceIdeal.Read

/-- For arguments with real entries the reference computes `attn`. -/
theorem result_eq_attn (q k v : (⟨S8x2048x128, .f32⟩ : BufTy).Contents (Elt Ideal))
    (hq : ∀ i, ∃ r : ℝ, q i = r) (hk : ∀ i, ∃ r : ℝ, k i = r) (hv : ∀ i, ∃ r : ℝ, v i = r) :
    val_main_v3 (F := Ideal) q k v = Spec.attn q k v := by
  funext i
  obtain ⟨b, s, d, rfl⟩ : ∃ (b : Fin 8) (s : Fin 2048) (d : Fin 128), i = ix3 b s d := ⟨i 0, i 1, i 2, eq_ix3 i⟩
  rw [RefValue.result_apply]
  exact Spec.scores_form q k v hq hk hv b s d

end Cert.RefBridge

end
-- ==== Proof.lean ====
/-
  The kernel against its reference: `out = (Q Kᵀ / 8) V` computed as `Q (Kᵀ V) · (1/8)`.

  For each batch the reference forms the scores `Q Kᵀ` (`2048 × 2048`), divides them by 8 and multiplies by `V`. The
  kernel, one grid point per batch, forms the small matrix `Kᵀ V` (`128 × 128`) first, multiplies `Q` by it and scales
  by `0.125`. On real numbers these are the same: the product of matrices is associative and a scalar moves through
  it. On the extended reals the rearrangement uses distributivity, which fails at infinities, so the precondition is
  used: every input entry is finite, hence a real number, and then so is every partial sum.

  The proof in modules: `Algebra` (the law on the reals, carried to extended reals at real entries), `Spec` (the
  result as one function `attn` of the three arrays, and the reference's arrangement equal to it), `Finite` (the
  precondition gives real entries), `KernelBlock` (what the body stores from three loaded blocks, the two matrix
  products read at an index by `LibPlainMatmul` and `LibColumnMatmul`), `KernelArray` (the blocks are the batches, and
  they cover the output: the array after the run is `attn`), `RefValue` and `RefBridge` (the reference read at an
  index, equal to `attn`). The frames of the two kernel programs and the kernel's run are the generated ones; the
  reference's frame is its generated run with the result forgotten. No rewrite was applied in idealizing the
  kernel, so there is nothing to preserve.
-/
import proofs.«131436_j39676907883207_1_alg».proof.Defs
import proofs.«131436_j39676907883207_1_alg».proof.Proof.Gen.Kernel
import proofs.«131436_j39676907883207_1_alg».proof.Proof.Gen.Kernel.Skeleton
import proofs.«131436_j39676907883207_1_alg».proof.Proof.Gen.Kernel.Launch
import proofs.«131436_j39676907883207_1_alg».proof.Proof.Gen.Kernel.Points
import proofs.«131436_j39676907883207_1_alg».proof.Proof.Gen.Kernel.Frame
import proofs.«131436_j39676907883207_1_alg».proof.Proof.Gen.KernelIdeal
import proofs.«131436_j39676907883207_1_alg».proof.Proof.Gen.KernelIdeal.Skeleton
import proofs.«131436_j39676907883207_1_alg».proof.Proof.Gen.KernelIdeal.Launch
import proofs.«131436_j39676907883207_1_alg».proof.Proof.Gen.KernelIdeal.Points
import proofs.«131436_j39676907883207_1_alg».proof.Proof.Gen.KernelIdeal.Frame
import proofs.«131436_j39676907883207_1_alg».proof.Proof.Gen.ReferenceIdeal
import proofs.«131436_j39676907883207_1_alg».proof.Proof.Gen.KernelIdeal.Value
import proofs.«131436_j39676907883207_1_alg».proof.Proof.Gen.ReferenceIdeal.Run
import proofs.«131436_j39676907883207_1_alg».proof.Proof.Gen.ReferenceIdeal.Read
import proofs.«131436_j39676907883207_1_alg».proof.Proof.Gen.Pre_finite_inputs
import proofs.«131436_j39676907883207_1_alg».proof.Proof.Finite
import proofs.«131436_j39676907883207_1_alg».proof.Proof.KernelArray
import proofs.«131436_j39676907883207_1_alg».proof.Proof.RefBridge
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with `attn` of the (agreeing, finite) arguments in their result arrays. -/
theorem algebraic : Cert.algebraic_KernelIdeal_ReferenceIdeal := by
  intro m ρ m' ρ' hpre hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hq, hk, hv⟩ := Cert.Finite.reals_of_pre _ _ _ (hpre c)
  exact (Cert.ReferenceIdeal.Read.val_main_v3_eq _ _ _).trans (Cert.RefBridge.result_eq_attn _ _ _ hq hk hv)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
